-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩

abbrev nBuf : Space → Nat
  | .hbm => 33
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1024x1024, .f32⟩
  | .hbm, ⟨26, _⟩ => ⟨S1024x1024, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S2048x1024_S1024x1024_0_0 : S2048x1024.Slices ![0, 0] S1024x1024
  bitsLt_bf16_f32 : FTy.bits .bf16 < FTy.bits .f32
  slices_S2048x1024_S1024x1024_1024_0 : S2048x1024.Slices ![1024, 0] S1024x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1024.size a ≤ S8192x1024.size a
  hwx0_15 : ∀ i : grid0.Coords, EltTy.bits .f32 = 32 ∨ (Rect.block (s := S8192x1024) S256x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x1024.size a ≤ S8192x1024.size a
  hwx0_16 : ∀ i : grid0.Coords, EltTy.bits .f32 = 32 ∨ (Rect.block (s := S8192x1024) S256x1024.size (cc0_transform_16 i) (hinb0_16 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v18) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v20_0) S256x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v20_1) S256x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S1x1024 : Shape := ⟨2, ![1, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x2048_S2048x1024_S8192x1024_1_0_0_1_n_n_wf : DotDims.WF S8192x2048 S2048x1024 S8192x1024 [1] [0] [0] [1] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Body.lean ====
/-
  The kernel's body at an index of its `[256, 1024]` row block.

  The body loads a block of 256 rows of `x`, `h` and `c`, the two `[1024, 1024]` halves of each of the four weight
  matrices and the four bias rows as `[1, 1024]`. Each gate's logit is the `x` block times the first half plus the
  `h` block times the second half plus the bias row broadcast down the rows: at `(r, q)`

      ∑ₖ xb(r, k) · wx(k, q) + ∑ₖ hb(r, k) · wh(k, q) + b(0, q).

  (The narrowing of the row blocks to bf16 is the identity on the extended reals, and each matrix product starts from
  the zero word, so it is the plain sum.)  The stored blocks are `c · σ(f) + tanh(g) · σ(m)` and `σ(o) · tanh` of that.
-/
import proofs.«168228_j3169685864614_1_alg».proof.Proof.Gen.KernelIdeal.Skeleton
import proofs.«168228_j3169685864614_1_alg».proof.Proof.LibRowwise
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Lib.Rowwise
open scoped BigOperators

/-- A block of 256 rows. -/
abbrev RowBlk : Type := S256x1024.Idx → EReal
/-- One half of a weight matrix. -/
abbrev WBlk : Type := S1024x1024.Idx → EReal
/-- A bias row, as a one-row matrix. -/
abbrev BBlk : Type := S1x1024.Idx → EReal

/-- The body's matrix products are plain products `[256, 1024] × [1024, 1024]`. -/
theorem dot_plain : dot_S256x1024_S1024x1024_S256x1024_1_0_0_1_n_n = DotDims.plain 256 1024 1024 :=
  eq_plain _ rfl rfl rfl rfl rfl rfl

/-- A row block times a weight half, from the zero word, at `(r, q)`. -/
theorem product_apply (a : FVec Ideal S256x1024 .bf16) (w : FVec Ideal S1024x1024 .bf16) (hc : S1024x1024.ShapeCasts S1024x1024)
    (r : Fin 256) (q : Fin 1024) :
    matmul dot_S256x1024_S1024x1024_S256x1024_1_0_0_1_n_n none a (shapeCast S1024x1024 w hc)
        (constant S256x1024 .f32 0x00000000#32) (ix2 r q)
      = ∑ k : Fin 1024, a (ix2 r k) * w (ix2 k q) := by
  rw [shapeCast_self, dot_plain]
  exact plain_matmul_zero_apply none a w r q

/-- The bias row broadcast down the rows, at `(r, q)`. -/
theorem bias_apply (b : BBlk) (hc : S1x1024.ShapeCasts S1x1024) (hb : S1x1024.Broadcasts S256x1024) (r : Fin 256)
    (q : Fin 1024) : broadcastTo S256x1024 (shapeCast S1x1024 b hc) hb (ix2 r q) = b (ix2 (0 : Fin 1) q) := by
  rw [shapeCast_self]
  refine broadcastTo_apply b hb (ix2 r q) (ix2 (0 : Fin 1) q) fun a => ?_
  match a with
  | ⟨0, _⟩ => exact (if_pos rfl).symm
  | ⟨1, _⟩ => exact (if_neg (show ¬ (1024 : Nat) = 1 by decide)).symm

/-- A gate's logit on the block, at `(r, q)`. -/
def blockLogit (xb hb : RowBlk) (wx wh : WBlk) (b : BBlk) (r : Fin 256) (q : Fin 1024) : EReal :=
  (∑ k : Fin 1024, xb (ix2 r k) * wx (ix2 k q)) + (∑ k : Fin 1024, hb (ix2 r k) * wh (ix2 k q)) + b (ix2 (0 : Fin 1) q)

/-- The forget gate's payload. -/
theorem sigmoid_gate_apply (v0 v2 : RowBlk) (v5 v8 : WBlk) (v12 : BBlk) (r : Fin 256) (q : Fin 1024) :
    k0_pay5 (F := Ideal) v0 v2 v5 v8 v12 (ix2 r q) = Ideal.logistic (blockLogit v0 v2 v5 v8 v12 r q) := by
  unfold k0_pay5 k0_pay3 k0_pay4
  simp only [Idealize.ShloMosaic.logistic, Idealize.ShloMosaic.addf, Ideal.logistic_def, Ideal.addf_def, product_apply,
    bias_apply]
  rfl

/-- The candidate's payload. -/
theorem tanh_gate_apply (v0 v2 : RowBlk) (v17 v20 : WBlk) (v24 : BBlk) (r : Fin 256) (q : Fin 1024) :
    k0_pay6 (F := Ideal) v0 v2 v17 v20 v24 (ix2 r q) = Ideal.tanh (blockLogit v0 v2 v17 v20 v24 r q) := by
  unfold k0_pay6 k0_pay3 k0_pay4
  simp only [Idealize.ShloMosaic.tanh, Idealize.ShloMosaic.addf, Ideal.tanh_def, Ideal.addf_def, product_apply,
    bias_apply]
  rfl

/-- The new cell state on the block, at `(r, q)`. -/
def blockC (x0 x1 x2 : RowBlk) (x3 x4 x5 x6 x7 x8 : WBlk) (x11 x12 x13 : BBlk) (r : Fin 256) (q : Fin 1024) : EReal :=
  x2 (ix2 r q) * Ideal.logistic (blockLogit x0 x1 x3 x4 x11 r q)
    + Ideal.tanh (blockLogit x0 x1 x5 x6 x12 r q) * Ideal.logistic (blockLogit x0 x1 x7 x8 x13 r q)

/-- The new hidden state on the block, at `(r, q)`. -/
def blockH (x0 x1 x2 : RowBlk) (x3 x4 x5 x6 x7 x8 x9 x10 : WBlk) (x11 x12 x13 x14 : BBlk) (r : Fin 256) (q : Fin 1024) :
    EReal :=
  Ideal.logistic (blockLogit x0 x1 x9 x10 x14 r q) * Ideal.tanh (blockC x0 x1 x2 x3 x4 x5 x6 x7 x8 x11 x12 x13 r q)

/-- The stored cell-state block. -/
theorem cell_apply (x0 x1 x2 : RowBlk) (x3 x4 x5 x6 x7 x8 : WBlk) (x11 x12 x13 : BBlk) (r : Fin 256) (q : Fin 1024) :
    k0_pay1 (F := Ideal) (k0_pay4 x1) x2 (k0_pay5 x0 x1 x3 x4 x11) (k0_pay6 x0 x1 x5 x6 x12) (k0_pay7 x0 x7) x8 x13 (ix2 r q)
      = blockC x0 x1 x2 x3 x4 x5 x6 x7 x8 x11 x12 x13 r q := by
  unfold k0_pay1 k0_pay7 k0_pay3 k0_pay4
  simp only [Idealize.ShloMosaic.logistic, Idealize.ShloMosaic.addf, Idealize.ShloMosaic.mulf, Ideal.logistic_def,
    Ideal.addf_def, Ideal.mulf_def, product_apply, bias_apply, sigmoid_gate_apply, tanh_gate_apply]
  rfl

/-- The stored hidden-state block. -/
theorem hidden_apply (x0 x1 x2 : RowBlk) (x3 x4 x5 x6 x7 x8 x9 x10 : WBlk) (x11 x12 x13 x14 : BBlk) (r : Fin 256)
    (q : Fin 1024) :
    k0_pay2 (F := Ideal) (k0_pay3 x0) (k0_pay4 x1) x2 (k0_pay5 x0 x1 x3 x4 x11) (k0_pay6 x0 x1 x5 x6 x12) (k0_pay7 x0 x7) x8
        x13 x9 x10 x14 (ix2 r q)
      = blockH x0 x1 x2 x3 x4 x5 x6 x7 x8 x9 x10 x11 x12 x13 x14 r q := by
  unfold k0_pay2
  simp only [Idealize.ShloMosaic.logistic, Idealize.ShloMosaic.tanh, Idealize.ShloMosaic.addf, Idealize.ShloMosaic.mulf,
    Ideal.logistic_def, Ideal.tanh_def, Ideal.addf_def, Ideal.mulf_def, cell_apply]
  unfold k0_pay3 k0_pay4
  simp only [product_apply, bias_apply]
  rfl

end Cert.KernelIdeal.Body

end
-- ==== Proof.Spec.lean ====
/-
  One step of an LSTM cell over a batch of 8192 rows, as functions on the extended reals.

  The inputs are `x, h, c : [8192, 1024]`, four weight matrices `W : [2048, 1024]` and four bias rows `b : [1024]`.
  A gate's logit at `(p, q)` is the row `p` of the joined matrix `[x | h]` times the column `q` of `W`, plus `b q`:

      logit (p, q) = ∑ₖ x(p, k) · W(k, q) + ∑ₖ h(p, k) · W(1024 + k, q) + b(q)        (k < 1024)

  written here with the sum over the 2048 joined columns already split into its two halves. With `σ` the logistic
  function `1 / (1 + e⁻ᶻ)`,

      c' = c · σ(logit_f) + tanh(logit_c) · σ(logit_m)        h' = σ(logit_o) · tanh(c').

  The one law used is that a sum over `Fin 2048` is the sum over its lower 1024 indices plus the sum over its upper
  1024 (`sum_halves`): addition of extended reals is commutative and associative, so no finiteness is needed.
-/
import Idealize.ShloMosaic.PureOps.Ideal
import Idealize.ShloMosaic.Lib.ValueIdx
import Mathlib.Algebra.BigOperators.Fin

noncomputable section

namespace Cert.LstmCell

open Idealize.ShloMosaic Idealize.ShloMosaic.ValueIdx
open scoped BigOperators

/-- A matrix of extended reals. -/
abbrev Mat (a b : Nat) : Type := (⟨2, ![a, b]⟩ : Shape).Idx → EReal
/-- A row of extended reals. -/
abbrev Row (a : Nat) : Type := (⟨1, ![a]⟩ : Shape).Idx → EReal

/-- Row `k` of a weight matrix's first half: the rows that meet `x`. -/
def upper (k : Fin 1024) : Fin 2048 := ⟨k.val, by omega⟩
/-- Row `1024 + k` of a weight matrix: the rows that meet `h`. -/
def lower (k : Fin 1024) : Fin 2048 := ⟨1024 + k.val, by omega⟩

/-- A sum over the 2048 joined columns is the sum over the first 1024 plus the sum over the last 1024. -/
theorem sum_halves (f : Fin 2048 → EReal) :
    ∑ k : Fin 2048, f k = ∑ k : Fin 1024, f (upper k) + ∑ k : Fin 1024, f (lower k) :=
  Fin.sum_univ_add (a := 1024) (b := 1024) f

/-- A gate's logit at `(p, q)`. -/
def logit (x h : Mat 8192 1024) (W : Mat 2048 1024) (b : Row 1024) (p : Fin 8192) (q : Fin 1024) : EReal :=
  (∑ k : Fin 1024, x (ix2 p k) * W (ix2 (upper k) q)) + (∑ k : Fin 1024, h (ix2 p k) * W (ix2 (lower k) q)) + b (ix1 q)

/-- The logit from the joined row: if `J` is row `p` of `[x | h]`, its product with column `q` of `W` plus the bias is the
    logit. -/
theorem logit_of_joined (x h : Mat 8192 1024) (W : Mat 2048 1024) (b : Row 1024) (p : Fin 8192) (q : Fin 1024)
    (J : Fin 2048 → EReal) (hu : ∀ k, J (upper k) = x (ix2 p k)) (hl : ∀ k, J (lower k) = h (ix2 p k)) :
    (∑ k : Fin 2048, J k * W (ix2 k q)) + b (ix1 q) = logit x h W b p q := by
  rw [sum_halves]
  simp only [hu, hl]
  rfl

/-- The new cell state at `(p, q)`. -/
def cAt (x h c : Mat 8192 1024) (Wf : Mat 2048 1024) (bf : Row 1024) (Wc : Mat 2048 1024) (bc : Row 1024)
    (Wm : Mat 2048 1024) (bm : Row 1024) (p : Fin 8192) (q : Fin 1024) : EReal :=
  c (ix2 p q) * Ideal.logistic (logit x h Wf bf p q)
    + Ideal.tanh (logit x h Wc bc p q) * Ideal.logistic (logit x h Wm bm p q)

/-- The new hidden state at `(p, q)`. -/
def hAt (x h c : Mat 8192 1024) (Wf : Mat 2048 1024) (bf : Row 1024) (Wc : Mat 2048 1024) (bc : Row 1024)
    (Wm : Mat 2048 1024) (bm : Row 1024) (Wo : Mat 2048 1024) (bo : Row 1024) (p : Fin 8192) (q : Fin 1024) : EReal :=
  Ideal.logistic (logit x h Wo bo p q) * Ideal.tanh (cAt x h c Wf bf Wc bc Wm bm p q)

/-- The new cell state, as a matrix. -/
def cNew (x h c : Mat 8192 1024) (Wf : Mat 2048 1024) (bf : Row 1024) (Wc : Mat 2048 1024) (bc : Row 1024)
    (Wm : Mat 2048 1024) (bm : Row 1024) : Mat 8192 1024 := fun i => cAt x h c Wf bf Wc bc Wm bm (i 0) (i 1)

/-- The new hidden state, as a matrix. -/
def hNew (x h c : Mat 8192 1024) (Wf : Mat 2048 1024) (bf : Row 1024) (Wc : Mat 2048 1024) (bc : Row 1024)
    (Wm : Mat 2048 1024) (bm : Row 1024) (Wo : Mat 2048 1024) (bo : Row 1024) : Mat 8192 1024 :=
  fun i => hAt x h c Wf bf Wc bc Wm bm Wo bo (i 0) (i 1)

theorem cNew_apply (x h c : Mat 8192 1024) (Wf : Mat 2048 1024) (bf : Row 1024) (Wc : Mat 2048 1024) (bc : Row 1024)
    (Wm : Mat 2048 1024) (bm : Row 1024) (p : Fin 8192) (q : Fin 1024) :
    cNew x h c Wf bf Wc bc Wm bm (ix2 p q) = cAt x h c Wf bf Wc bc Wm bm p q := rfl

theorem hNew_apply (x h c : Mat 8192 1024) (Wf : Mat 2048 1024) (bf : Row 1024) (Wc : Mat 2048 1024) (bc : Row 1024)
    (Wm : Mat 2048 1024) (bm : Row 1024) (Wo : Mat 2048 1024) (bo : Row 1024) (p : Fin 8192) (q : Fin 1024) :
    hNew x h c Wf bf Wc bc Wm bm Wo bo (ix2 p q) = hAt x h c Wf bf Wc bc Wm bm Wo bo p q := rfl

end Cert.LstmCell

end
-- ==== Proof.Bridge.lean ====
/-
  From a block to the arrays.

  If the row blocks hold rows `ρ r` of `x`, `h`, `c`, each pair of weight halves holds rows `k` and `1024 + k` of its
  matrix, and each one-row bias block holds its bias row, then the block's logits are the cell's logits at row `ρ r`,
  and so are the two stored values.
-/
import proofs.«168228_j3169685864614_1_alg».proof.Proof.Body
import proofs.«168228_j3169685864614_1_alg».proof.Proof.Spec

noncomputable section

namespace Cert.KernelIdeal.Body

open Cert.KernelIdeal Idealize.ShloMosaic Idealize.ShloMosaic.ValueIdx Cert.LstmCell

/-- A gate's logit on the block is the gate's logit at row `ρ r`. -/
theorem blockLogit_eq (xb hb : RowBlk) (wx wh : WBlk) (b : BBlk) (X H : Mat 8192 1024) (W : Mat 2048 1024) (B : Row 1024)
    (ρ : Fin 256 → Fin 8192) (hx : ∀ r k, xb (ix2 r k) = X (ix2 (ρ r) k)) (hh : ∀ r k, hb (ix2 r k) = H (ix2 (ρ r) k))
    (hwx : ∀ k q, wx (ix2 k q) = W (ix2 (upper k) q)) (hwh : ∀ k q, wh (ix2 k q) = W (ix2 (lower k) q))
    (hB : ∀ q, b (ix2 (0 : Fin 1) q) = B (ix1 q)) (r : Fin 256) (q : Fin 1024) :
    blockLogit xb hb wx wh b r q = logit X H W B (ρ r) q := by
  unfold blockLogit logit
  simp only [hx, hh, hwx, hwh, hB]

/-- The stored cell-state value is the new cell state at row `ρ r`. -/
theorem blockC_eq (x0 x1 x2 : RowBlk) (x3 x4 x5 x6 x7 x8 : WBlk) (x11 x12 x13 : BBlk) (X H C : Mat 8192 1024)
    (Wf : Mat 2048 1024) (bf : Row 1024) (Wc : Mat 2048 1024) (bc : Row 1024) (Wm : Mat 2048 1024) (bm : Row 1024)
    (ρ : Fin 256 → Fin 8192) (hx : ∀ r k, x0 (ix2 r k) = X (ix2 (ρ r) k)) (hh : ∀ r k, x1 (ix2 r k) = H (ix2 (ρ r) k))
    (hc : ∀ r q, x2 (ix2 r q) = C (ix2 (ρ r) q))
    (h3 : ∀ k q, x3 (ix2 k q) = Wf (ix2 (upper k) q)) (h4 : ∀ k q, x4 (ix2 k q) = Wf (ix2 (lower k) q))
    (h5 : ∀ k q, x5 (ix2 k q) = Wc (ix2 (upper k) q)) (h6 : ∀ k q, x6 (ix2 k q) = Wc (ix2 (lower k) q))
    (h7 : ∀ k q, x7 (ix2 k q) = Wm (ix2 (upper k) q)) (h8 : ∀ k q, x8 (ix2 k q) = Wm (ix2 (lower k) q))
    (h11 : ∀ q, x11 (ix2 (0 : Fin 1) q) = bf (ix1 q)) (h12 : ∀ q, x12 (ix2 (0 : Fin 1) q) = bc (ix1 q))
    (h13 : ∀ q, x13 (ix2 (0 : Fin 1) q) = bm (ix1 q)) (r : Fin 256) (q : Fin 1024) :
    blockC x0 x1 x2 x3 x4 x5 x6 x7 x8 x11 x12 x13 r q = cAt X H C Wf bf Wc bc Wm bm (ρ r) q := by
  unfold blockC cAt
  rw [blockLogit_eq x0 x1 x3 x4 x11 X H Wf bf ρ hx hh h3 h4 h11, blockLogit_eq x0 x1 x5 x6 x12 X H Wc bc ρ hx hh h5 h6 h12,
    blockLogit_eq x0 x1 x7 x8 x13 X H Wm bm ρ hx hh h7 h8 h13, hc]

/-- The stored hidden-state value is the new hidden state at row `ρ r`. -/
theorem blockH_eq (x0 x1 x2 : RowBlk) (x3 x4 x5 x6 x7 x8 x9 x10 : WBlk) (x11 x12 x13 x14 : BBlk) (X H C : Mat 8192 1024)
    (Wf : Mat 2048 1024) (bf : Row 1024) (Wc : Mat 2048 1024) (bc : Row 1024) (Wm : Mat 2048 1024) (bm : Row 1024)
    (Wo : Mat 2048 1024) (bo : Row 1024)
    (ρ : Fin 256 → Fin 8192) (hx : ∀ r k, x0 (ix2 r k) = X (ix2 (ρ r) k)) (hh : ∀ r k, x1 (ix2 r k) = H (ix2 (ρ r) k))
    (hc : ∀ r q, x2 (ix2 r q) = C (ix2 (ρ r) q))
    (h3 : ∀ k q, x3 (ix2 k q) = Wf (ix2 (upper k) q)) (h4 : ∀ k q, x4 (ix2 k q) = Wf (ix2 (lower k) q))
    (h5 : ∀ k q, x5 (ix2 k q) = Wc (ix2 (upper k) q)) (h6 : ∀ k q, x6 (ix2 k q) = Wc (ix2 (lower k) q))
    (h7 : ∀ k q, x7 (ix2 k q) = Wm (ix2 (upper k) q)) (h8 : ∀ k q, x8 (ix2 k q) = Wm (ix2 (lower k) q))
    (h9 : ∀ k q, x9 (ix2 k q) = Wo (ix2 (upper k) q)) (h10 : ∀ k q, x10 (ix2 k q) = Wo (ix2 (lower k) q))
    (h11 : ∀ q, x11 (ix2 (0 : Fin 1) q) = bf (ix1 q)) (h12 : ∀ q, x12 (ix2 (0 : Fin 1) q) = bc (ix1 q))
    (h13 : ∀ q, x13 (ix2 (0 : Fin 1) q) = bm (ix1 q)) (h14 : ∀ q, x14 (ix2 (0 : Fin 1) q) = bo (ix1 q))
    (r : Fin 256) (q : Fin 1024) :
    blockH x0 x1 x2 x3 x4 x5 x6 x7 x8 x9 x10 x11 x12 x13 x14 r q = hAt X H C Wf bf Wc bc Wm bm Wo bo (ρ r) q := by
  unfold blockH hAt
  rw [blockLogit_eq x0 x1 x9 x10 x14 X H Wo bo ρ hx hh h9 h10 h14,
    blockC_eq x0 x1 x2 x3 x4 x5 x6 x7 x8 x11 x12 x13 X H C Wf bf Wc bc Wm bm ρ hx hh hc h3 h4 h5 h6 h7 h8 h11 h12 h13]

end Cert.KernelIdeal.Body

end
-- ==== Proof.Cell.lean ====
/-
  The kernel's two result arrays are the LSTM cell of `Spec.lean`.

  The grid has 32 points. Point `t` stages rows `256 t … 256 t + 255` of `x`, `h` and `c`, the whole of each weight half
  (the first and the last 1024 rows of each weight matrix, narrowed to bf16, which on the extended reals changes nothing)
  and of each bias row (reshaped to one row), and it writes rows `256 t … 256 t + 255` of both results. So what point `t`
  writes is rows `256 t …` of the cell's two outputs, and the 32 blocks tile the `[8192, 1024]` arrays: row `p` is in
  the block of point `p / 256`.
-/
import proofs.«168228_j3169685864614_1_alg».proof.Proof.Gen.KernelIdeal.Value
import proofs.«168228_j3169685864614_1_alg».proof.Proof.Bridge
import Idealize.ShloMosaic.Lib.Pipeline.Value
import Idealize.ShloMosaic.Lib.StableHlo.Run
import Idealize.ShloMosaic.Lib.Tactic

noncomputable section

namespace Cert.KernelIdeal.Cell

open Cert.KernelIdeal Cert.KernelIdeal.Gen Cert.KernelIdeal.Value Cert.KernelIdeal.Body
open Idealize.ShloMosaic Idealize.ShloMosaic.TcCoe Idealize.SL.Sem Idealize.ShloMosaic.ValueIdx Cert.LstmCell
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps -/

/-- The row-block windows (the three inputs and the two results) are at block `(t, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

/-- Every weight half and bias row is at block `(0, 0)`, at every point. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-- Row `r` of point `t`'s block is row `256 t + r` of the array. -/
def row (t : Fin cfg0.N) (r : Fin 256) : Fin 8192 :=
  ⟨256 * t.val + r.val, by have h : t.val < 32 := lt_of_lt_of_eq t.isLt N_0; omega⟩

/-! ## The row blocks -/

/-- The `x` block at point `t`. -/
theorem xblk_apply (c : Dev nD) (t : Fin cfg0.N) (r : Fin 256) (k : Fin 1024) :
    (iblk m c 0 t : Vec Ideal S256x1024 .f32) (ix2 r k)
      = (m ((c : Thread nD τ).loc main_arg0) : S8192x1024.Idx → EReal) (ix2 (row t r) k) := by
  obtain ⟨⟨e0, e1⟩, -⟩ := idx_facts t
  unfold iblk
  rw [View.read_apply]
  show V m c main_arg0 _ = _
  rw [V_main_arg0]
  refine congrArg _ (funext fun a => Fin.ext ?_)
  match a with
  | ⟨0, _⟩ => show win0_0.index t 0 * 256 + 1 * r.val = 256 * t.val + r.val; rw [e0]; omega
  | ⟨1, _⟩ => show win0_0.index t 1 * 1024 + 1 * k.val = k.val; rw [e1]; omega

/-- The `h` block at point `t`. -/
theorem hblk_apply (c : Dev nD) (t : Fin cfg0.N) (r : Fin 256) (k : Fin 1024) :
    (iblk m c 1 t : Vec Ideal S256x1024 .f32) (ix2 r k)
      = (m ((c : Thread nD τ).loc main_arg1) : S8192x1024.Idx → EReal) (ix2 (row t r) k) := by
  obtain ⟨-, ⟨e0, e1⟩, -⟩ := idx_facts t
  unfold iblk
  rw [View.read_apply]
  show V m c main_arg1 _ = _
  rw [V_main_arg1]
  refine congrArg _ (funext fun a => Fin.ext ?_)
  match a with
  | ⟨0, _⟩ => show win0_1.index t 0 * 256 + 1 * r.val = 256 * t.val + r.val; rw [e0]; omega
  | ⟨1, _⟩ => show win0_1.index t 1 * 1024 + 1 * k.val = k.val; rw [e1]; omega

/-- The `c` block at point `t`. -/
theorem cblk_apply (c : Dev nD) (t : Fin cfg0.N) (r : Fin 256) (k : Fin 1024) :
    (iblk m c 2 t : Vec Ideal S256x1024 .f32) (ix2 r k)
      = (m ((c : Thread nD τ).loc main_arg2) : S8192x1024.Idx → EReal) (ix2 (row t r) k) := by
  obtain ⟨-, -, ⟨e0, e1⟩, -⟩ := idx_facts t
  unfold iblk
  rw [View.read_apply]
  show V m c main_arg2 _ = _
  rw [V_main_arg2]
  refine congrArg _ (funext fun a => Fin.ext ?_)
  match a with
  | ⟨0, _⟩ => show win0_2.index t 0 * 256 + 1 * r.val = 256 * t.val + r.val; rw [e0]; omega
  | ⟨1, _⟩ => show win0_2.index t 1 * 1024 + 1 * k.val = k.val; rw [e1]; omega

/-! ## The weight halves -/

/-- The first 1024 rows of a weight matrix, narrowed, at an index with coordinates `(k, q)`. -/
theorem upper_half_at (W : S2048x1024.Idx → EReal) (hs : S2048x1024.Slices ![0, 0] S1024x1024) (hb : FTy.bits .bf16 < FTy.bits .f32)
    (j : S1024x1024.Idx) (k q : Fin 1024) (h0 : (j 0).val = k.val) (h1 : (j 1).val = q.val) :
    truncf (F := Ideal) (φ := .f32) .bf16 (extractStridedSlice S1024x1024 ![0, 0] W hs) hb j = W (ix2 (upper k) q) := by
  show extractStridedSlice S1024x1024 ![0, 0] W hs j = _
  refine extractStridedSlice_apply _ W hs j (ix2 (upper k) q) fun a => ?_
  match a with
  | ⟨0, _⟩ => show k.val = 0 + (j 0).val; omega
  | ⟨1, _⟩ => show q.val = 0 + (j 1).val; omega

/-- The last 1024 rows of a weight matrix, narrowed, at an index with coordinates `(k, q)`. -/
theorem lower_half_at (W : S2048x1024.Idx → EReal) (hs : S2048x1024.Slices ![1024, 0] S1024x1024) (hb : FTy.bits .bf16 < FTy.bits .f32)
    (j : S1024x1024.Idx) (k q : Fin 1024) (h0 : (j 0).val = k.val) (h1 : (j 1).val = q.val) :
    truncf (F := Ideal) (φ := .f32) .bf16 (extractStridedSlice S1024x1024 ![1024, 0] W hs) hb j = W (ix2 (lower k) q) := by
  show extractStridedSlice S1024x1024 ![1024, 0] W hs j = _
  refine extractStridedSlice_apply _ W hs j (ix2 (lower k) q) fun a => ?_
  match a with
  | ⟨0, _⟩ => show 1024 + k.val = 1024 + (j 0).val; omega
  | ⟨1, _⟩ => show q.val = 0 + (j 1).val; omega

/-- Window 3: the first half of the forget gate's weights. -/
theorem w3_apply (c : Dev nD) (t : Fin cfg0.N) (k q : Fin 1024) :
    (iblk m c 3 t : Vec Ideal S1024x1024 .bf16) (ix2 k q)
      = (m ((c : Thread nD τ).loc main_arg3) : S2048x1024.Idx → EReal) (ix2 (upper k) q) := by
  obtain ⟨⟨e0, e1⟩, -⟩ := idx_whole t
  unfold iblk
  rw [View.read_apply]
  show V m c main_v1 _ = _
  have e : (V m c main_v1 : S1024x1024.Idx → EReal)
      = truncf (F := Ideal) (φ := .f32) .bf16 (extractStridedSlice S1024x1024 ![0, 0] (m ((c : Thread nD τ).loc main_arg3)) slices_S2048x1024_S1024x1024_0_0) bitsLt_bf16_f32 := by
    dsimp only [V, hostOps0]; after_results
  rw [e]
  refine upper_half_at _ _ _ _ k q ?_ ?_
  · show win0_3.index t 0 * 1024 + 1 * k.val = k.val; rw [e0]; omega
  · show win0_3.index t 1 * 1024 + 1 * q.val = q.val; rw [e1]; omega

/-- Window 4: the second half of the forget gate's weights. -/
theorem w4_apply (c : Dev nD) (t : Fin cfg0.N) (k q : Fin 1024) :
    (iblk m c 4 t : Vec Ideal S1024x1024 .bf16) (ix2 k q)
      = (m ((c : Thread nD τ).loc main_arg3) : S2048x1024.Idx → EReal) (ix2 (lower k) q) := by
  obtain ⟨-, ⟨e0, e1⟩, -⟩ := idx_whole t
  unfold iblk
  rw [View.read_apply]
  show V m c main_v3 _ = _
  have e : (V m c main_v3 : S1024x1024.Idx → EReal)
      = truncf (F := Ideal) (φ := .f32) .bf16 (extractStridedSlice S1024x1024 ![1024, 0] (m ((c : Thread nD τ).loc main_arg3)) slices_S2048x1024_S1024x1024_1024_0) bitsLt_bf16_f32 := by
    dsimp only [V, hostOps0]; after_results
  rw [e]
  refine lower_half_at _ _ _ _ k q ?_ ?_
  · show win0_4.index t 0 * 1024 + 1 * k.val = k.val; rw [e0]; omega
  · show win0_4.index t 1 * 1024 + 1 * q.val = q.val; rw [e1]; omega

/-- Window 5: the first half of the candidate's weights. -/
theorem w5_apply (c : Dev nD) (t : Fin cfg0.N) (k q : Fin 1024) :
    (iblk m c 5 t : Vec Ideal S1024x1024 .bf16) (ix2 k q)
      = (m ((c : Thread nD τ).loc main_arg5) : S2048x1024.Idx → EReal) (ix2 (upper k) q) := by
  obtain ⟨-, -, ⟨e0, e1⟩, -⟩ := idx_whole t
  unfold iblk
  rw [View.read_apply]
  show V m c main_v5 _ = _
  have e : (V m c main_v5 : S1024x1024.Idx → EReal)
      = truncf (F := Ideal) (φ := .f32) .bf16 (extractStridedSlice S1024x1024 ![0, 0] (m ((c : Thread nD τ).loc main_arg5)) slices_S2048x1024_S1024x1024_0_0) bitsLt_bf16_f32 := by
    dsimp only [V, hostOps0]; after_results
  rw [e]
  refine upper_half_at _ _ _ _ k q ?_ ?_
  · show win0_5.index t 0 * 1024 + 1 * k.val = k.val; rw [e0]; omega
  · show win0_5.index t 1 * 1024 + 1 * q.val = q.val; rw [e1]; omega

/-- Window 6: the second half of the candidate's weights. -/
theorem w6_apply (c : Dev nD) (t : Fin cfg0.N) (k q : Fin 1024) :
    (iblk m c 6 t : Vec Ideal S1024x1024 .bf16) (ix2 k q)
      = (m ((c : Thread nD τ).loc main_arg5) : S2048x1024.Idx → EReal) (ix2 (lower k) q) := by
  obtain ⟨-, -, -, ⟨e0, e1⟩, -⟩ := idx_whole t
  unfold iblk
  rw [View.read_apply]
  show V m c main_v7 _ = _
  have e : (V m c main_v7 : S1024x1024.Idx → EReal)
      = truncf (F := Ideal) (φ := .f32) .bf16 (extractStridedSlice S1024x1024 ![1024, 0] (m ((c : Thread nD τ).loc main_arg5)) slices_S2048x1024_S1024x1024_1024_0) bitsLt_bf16_f32 := by
    dsimp only [V, hostOps0]; after_results
  rw [e]
  refine lower_half_at _ _ _ _ k q ?_ ?_
  · show win0_6.index t 0 * 1024 + 1 * k.val = k.val; rw [e0]; omega
  · show win0_6.index t 1 * 1024 + 1 * q.val = q.val; rw [e1]; omega

/-- Window 7: the first half of the input gate's weights. -/
theorem w7_apply (c : Dev nD) (t : Fin cfg0.N) (k q : Fin 1024) :
    (iblk m c 7 t : Vec Ideal S1024x1024 .bf16) (ix2 k q)
      = (m ((c : Thread nD τ).loc main_arg7) : S2048x1024.Idx → EReal) (ix2 (upper k) q) := by
  obtain ⟨-, -, -, -, ⟨e0, e1⟩, -⟩ := idx_whole t
  unfold iblk
  rw [View.read_apply]
  show V m c main_v9 _ = _
  have e : (V m c main_v9 : S1024x1024.Idx → EReal)
      = truncf (F := Ideal) (φ := .f32) .bf16 (extractStridedSlice S1024x1024 ![0, 0] (m ((c : Thread nD τ).loc main_arg7)) slices_S2048x1024_S1024x1024_0_0) bitsLt_bf16_f32 := by
    dsimp only [V, hostOps0]; after_results
  rw [e]
  refine upper_half_at _ _ _ _ k q ?_ ?_
  · show win0_7.index t 0 * 1024 + 1 * k.val = k.val; rw [e0]; omega
  · show win0_7.index t 1 * 1024 + 1 * q.val = q.val; rw [e1]; omega

/-- Window 8: the second half of the input gate's weights. -/
theorem w8_apply (c : Dev nD) (t : Fin cfg0.N) (k q : Fin 1024) :
    (iblk m c 8 t : Vec Ideal S1024x1024 .bf16) (ix2 k q)
      = (m ((c : Thread nD τ).loc main_arg7) : S2048x1024.Idx → EReal) (ix2 (lower k) q) := by
  obtain ⟨-, -, -, -, -, ⟨e0, e1⟩, -⟩ := idx_whole t
  unfold iblk
  rw [View.read_apply]
  show V m c main_v11 _ = _
  have e : (V m c main_v11 : S1024x1024.Idx → EReal)
      = truncf (F := Ideal) (φ := .f32) .bf16 (extractStridedSlice S1024x1024 ![1024, 0] (m ((c : Thread nD τ).loc main_arg7)) slices_S2048x1024_S1024x1024_1024_0) bitsLt_bf16_f32 := by
    dsimp only [V, hostOps0]; after_results
  rw [e]
  refine lower_half_at _ _ _ _ k q ?_ ?_
  · show win0_8.index t 0 * 1024 + 1 * k.val = k.val; rw [e0]; omega
  · show win0_8.index t 1 * 1024 + 1 * q.val = q.val; rw [e1]; omega

/-- Window 9: the first half of the output gate's weights. -/
theorem w9_apply (c : Dev nD) (t : Fin cfg0.N) (k q : Fin 1024) :
    (iblk m c 9 t : Vec Ideal S1024x1024 .bf16) (ix2 k q)
      = (m ((c : Thread nD τ).loc main_arg9) : S2048x1024.Idx → EReal) (ix2 (upper k) q) := by
  obtain ⟨-, -, -, -, -, -, ⟨e0, e1⟩, -⟩ := idx_whole t
  unfold iblk
  rw [View.read_apply]
  show V m c main_v13 _ = _
  have e : (V m c main_v13 : S1024x1024.Idx → EReal)
      = truncf (F := Ideal) (φ := .f32) .bf16 (extractStridedSlice S1024x1024 ![0, 0] (m ((c : Thread nD τ).loc main_arg9)) slices_S2048x1024_S1024x1024_0_0) bitsLt_bf16_f32 := by
    dsimp only [V, hostOps0]; after_results
  rw [e]
  refine upper_half_at _ _ _ _ k q ?_ ?_
  · show win0_9.index t 0 * 1024 + 1 * k.val = k.val; rw [e0]; omega
  · show win0_9.index t 1 * 1024 + 1 * q.val = q.val; rw [e1]; omega

/-- Window 10: the second half of the output gate's weights. -/
theorem w10_apply (c : Dev nD) (t : Fin cfg0.N) (k q : Fin 1024) :
    (iblk m c 10 t : Vec Ideal S1024x1024 .bf16) (ix2 k q)
      = (m ((c : Thread nD τ).loc main_arg9) : S2048x1024.Idx → EReal) (ix2 (lower k) q) := by
  obtain ⟨-, -, -, -, -, -, -, ⟨e0, e1⟩, -⟩ := idx_whole t
  unfold iblk
  rw [View.read_apply]
  show V m c main_v15 _ = _
  have e : (V m c main_v15 : S1024x1024.Idx → EReal)
      = truncf (F := Ideal) (φ := .f32) .bf16 (extractStridedSlice S1024x1024 ![1024, 0] (m ((c : Thread nD τ).loc main_arg9)) slices_S2048x1024_S1024x1024_1024_0) bitsLt_bf16_f32 := by
    dsimp only [V, hostOps0]; after_results
  rw [e]
  refine lower_half_at _ _ _ _ k q ?_ ?_
  · show win0_10.index t 0 * 1024 + 1 * k.val = k.val; rw [e0]; omega
  · show win0_10.index t 1 * 1024 + 1 * q.val = q.val; rw [e1]; omega

/-! ## The bias rows -/

/-- A bias row reshaped to one row, at an index with coordinates `(0, q)`. -/
theorem bias_row_at (b : S1024.Idx → EReal) (hc : S1024.ShapeCasts S1x1024) (j : S1x1024.Idx) (q : Fin 1024)
    (h0 : (j 0).val = 0) (h1 : (j 1).val = q.val) : shapeCast S1x1024 b hc j = b (ix1 q) := by
  refine shapeCast_apply b hc j (ix1 q) ?_
  rw [Shape.rowMajor_val_one, Shape.rowMajor_val_two]
  show q.val = (j 0).val * 1024 + (j 1).val
  omega

/-- Window 11: the forget gate's bias row. -/
theorem b11_apply (c : Dev nD) (t : Fin cfg0.N) (q : Fin 1024) :
    (iblk m c 11 t : Vec Ideal S1x1024 .f32) (ix2 (0 : Fin 1) q)
      = (m ((c : Thread nD τ).loc main_arg4) : S1024.Idx → EReal) (ix1 q) := by
  obtain ⟨-, -, -, -, -, -, -, -, ⟨e0, e1⟩, -⟩ := idx_whole t
  unfold iblk
  rw [View.read_apply]
  show V m c main_v16 _ = _
  have e : (V m c main_v16 : S1x1024.Idx → EReal)
      = shapeCast S1x1024 (m ((c : Thread nD τ).loc main_arg4)) shapeCasts_S1024_S1x1024 := by
    dsimp only [V, hostOps0]; after_results; rfl
  rw [e]
  refine bias_row_at _ _ _ q ?_ ?_
  · show win0_11.index t 0 * 1 + 1 * 0 = 0; rw [e0]
  · show win0_11.index t 1 * 1024 + 1 * q.val = q.val; rw [e1]; omega

/-- Window 12: the candidate's bias row. -/
theorem b12_apply (c : Dev nD) (t : Fin cfg0.N) (q : Fin 1024) :
    (iblk m c 12 t : Vec Ideal S1x1024 .f32) (ix2 (0 : Fin 1) q)
      = (m ((c : Thread nD τ).loc main_arg6) : S1024.Idx → EReal) (ix1 q) := by
  obtain ⟨-, -, -, -, -, -, -, -, -, ⟨e0, e1⟩, -⟩ := idx_whole t
  unfold iblk
  rw [View.read_apply]
  show V m c main_v17 _ = _
  have e : (V m c main_v17 : S1x1024.Idx → EReal)
      = shapeCast S1x1024 (m ((c : Thread nD τ).loc main_arg6)) shapeCasts_S1024_S1x1024 := by
    dsimp only [V, hostOps0]; after_results; rfl
  rw [e]
  refine bias_row_at _ _ _ q ?_ ?_
  · show win0_12.index t 0 * 1 + 1 * 0 = 0; rw [e0]
  · show win0_12.index t 1 * 1024 + 1 * q.val = q.val; rw [e1]; omega

/-- Window 13: the input gate's bias row. -/
theorem b13_apply (c : Dev nD) (t : Fin cfg0.N) (q : Fin 1024) :
    (iblk m c 13 t : Vec Ideal S1x1024 .f32) (ix2 (0 : Fin 1) q)
      = (m ((c : Thread nD τ).loc main_arg8) : S1024.Idx → EReal) (ix1 q) := by
  obtain ⟨-, -, -, -, -, -, -, -, -, -, ⟨e0, e1⟩, -⟩ := idx_whole t
  unfold iblk
  rw [View.read_apply]
  show V m c main_v18 _ = _
  have e : (V m c main_v18 : S1x1024.Idx → EReal)
      = shapeCast S1x1024 (m ((c : Thread nD τ).loc main_arg8)) shapeCasts_S1024_S1x1024 := by
    dsimp only [V, hostOps0]; after_results; rfl
  rw [e]
  refine bias_row_at _ _ _ q ?_ ?_
  · show win0_13.index t 0 * 1 + 1 * 0 = 0; rw [e0]
  · show win0_13.index t 1 * 1024 + 1 * q.val = q.val; rw [e1]; omega

/-- Window 14: the output gate's bias row. -/
theorem b14_apply (c : Dev nD) (t : Fin cfg0.N) (q : Fin 1024) :
    (iblk m c 14 t : Vec Ideal S1x1024 .f32) (ix2 (0 : Fin 1) q)
      = (m ((c : Thread nD τ).loc main_arg10) : S1024.Idx → EReal) (ix1 q) := by
  obtain ⟨-, -, -, -, -, -, -, -, -, -, -, ⟨e0, e1⟩⟩ := idx_whole t
  unfold iblk
  rw [View.read_apply]
  show V m c main_v19 _ = _
  have e : (V m c main_v19 : S1x1024.Idx → EReal)
      = shapeCast S1x1024 (m ((c : Thread nD τ).loc main_arg10)) shapeCasts_S1024_S1x1024 := by
    dsimp only [V, hostOps0]; after_results; rfl
  rw [e]
  refine bias_row_at _ _ _ q ?_ ?_
  · show win0_14.index t 0 * 1 + 1 * 0 = 0; rw [e0]
  · show win0_14.index t 1 * 1024 + 1 * q.val = q.val; rw [e1]; omega

/-! ## What each point writes back -/

/-- The new cell state of the launch's arguments. -/
abbrev cellOut (c : Dev nD) : Mat 8192 1024 :=
  cNew (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The new hidden state of the launch's arguments. -/
abbrev hiddenOut (c : Dev nD) : Mat 8192 1024 :=
  hNew (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- Point `t` writes rows `256 t …` of the new cell state. -/
theorem flushed16_eq (c : Dev nD) (t : Fin cfg0.N) :
    (dats m 0 c).flushed 16 t = ((cfg0.win 16).blk t).view.read (Elt Ideal) (cellOut m c) := by
  obtain ⟨-, -, -, -, ⟨e0, e1⟩⟩ := idx_facts t
  rw [flushed16]
  unfold out0_16
  rw [View.canon_unit_zero hz]
  simp only [View.ld_unit_zero (S := S256x1024) hz, View.ld_unit_zero (S := S1024x1024) hz, View.ld_unit_zero (S := S1x1024) hz]
  funext j
  obtain ⟨r, q, rfl⟩ : ∃ (r : Fin 256) (q : Fin 1024), j = ix2 r q := ⟨j 0, j 1, eq_ix2 (n0 := 256) (n1 := 1024) j⟩
  rw [View.read_apply]
  have hemb : ((cfg0.win 16).blk t).view.emb (ix2 r q) = ix2 (row t r) q := funext fun a => Fin.ext (by
    match a with
    | ⟨0, _⟩ => show win0_16.index t 0 * 256 + 1 * r.val = 256 * t.val + r.val; rw [e0]; omega
    | ⟨1, _⟩ => show win0_16.index t 1 * 1024 + 1 * q.val = q.val; rw [e1]; omega)
  rw [hemb]
  refine (cell_apply (iblk m c 0 t) (iblk m c 1 t) (iblk m c 2 t) (iblk m c 3 t) (iblk m c 4 t) (iblk m c 5 t) (iblk m c 6 t)
    (iblk m c 7 t) (iblk m c 8 t) (iblk m c 11 t) (iblk m c 12 t) (iblk m c 13 t) r q).trans ?_
  exact blockC_eq (iblk m c 0 t) (iblk m c 1 t) (iblk m c 2 t) (iblk m c 3 t) (iblk m c 4 t) (iblk m c 5 t) (iblk m c 6 t)
    (iblk m c 7 t) (iblk m c 8 t) (iblk m c 11 t) (iblk m c 12 t) (iblk m c 13 t) _ _ _ _ _ _ _ _ _ (row t)
    (xblk_apply m c t) (hblk_apply m c t) (cblk_apply m c t) (w3_apply m c t) (w4_apply m c t) (w5_apply m c t) (w6_apply m c t)
    (w7_apply m c t) (w8_apply m c t) (b11_apply m c t) (b12_apply m c t) (b13_apply m c t) r q

/-- Point `t` writes rows `256 t …` of the new hidden state. -/
theorem flushed15_eq (c : Dev nD) (t : Fin cfg0.N) :
    (dats m 0 c).flushed 15 t = ((cfg0.win 15).blk t).view.read (Elt Ideal) (hiddenOut m c) := by
  obtain ⟨-, -, -, ⟨e0, e1⟩, -⟩ := idx_facts t
  rw [flushed15]
  unfold out0_15
  rw [View.canon_unit_zero hz]
  simp only [View.ld_unit_zero (S := S256x1024) hz, View.ld_unit_zero (S := S1024x1024) hz, View.ld_unit_zero (S := S1x1024) hz]
  funext j
  obtain ⟨r, q, rfl⟩ : ∃ (r : Fin 256) (q : Fin 1024), j = ix2 r q := ⟨j 0, j 1, eq_ix2 (n0 := 256) (n1 := 1024) j⟩
  rw [View.read_apply]
  have hemb : ((cfg0.win 15).blk t).view.emb (ix2 r q) = ix2 (row t r) q := funext fun a => Fin.ext (by
    match a with
    | ⟨0, _⟩ => show win0_15.index t 0 * 256 + 1 * r.val = 256 * t.val + r.val; rw [e0]; omega
    | ⟨1, _⟩ => show win0_15.index t 1 * 1024 + 1 * q.val = q.val; rw [e1]; omega)
  rw [hemb]
  refine (hidden_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    r q).trans ?_
  exact blockH_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    _ _ _ _ _ _ _ _ _ _ _ (row t)
    (xblk_apply m c t) (hblk_apply m c t) (cblk_apply m c t) (w3_apply m c t) (w4_apply m c t) (w5_apply m c t) (w6_apply m c t)
    (w7_apply m c t) (w8_apply m c t) (w9_apply m c t) (w10_apply m c t) (b11_apply m c t) (b12_apply m c t) (b13_apply m c t)
    (b14_apply m c t) r q

/-! ## The blocks tile the arrays -/

/-- An index is in point `t`'s block of the cell-state array iff each coordinate is in the block's range. -/
theorem mem_blk16 (t : Fin cfg0.N) (i : S8192x1024.Idx) :
    i ∈ ((cfg0.win 16).blk t).view.set ↔ ∀ a : Fin 2, win0_16.index t a * S256x1024.size a ≤ (i a).val ∧ (i a).val < win0_16.index t a * S256x1024.size a + S256x1024.size a := by
  show i ∈ ((View.whole main_v20_1).slice (win0_16.rect t)).set ↔ _
  rw [View.set_slice_whole, Rect.mem_set_unit]
  exact Iff.rfl

/-- The same for the hidden-state array. -/
theorem mem_blk15 (t : Fin cfg0.N) (i : S8192x1024.Idx) :
    i ∈ ((cfg0.win 15).blk t).view.set ↔ ∀ a : Fin 2, win0_15.index t a * S256x1024.size a ≤ (i a).val ∧ (i a).val < win0_15.index t a * S256x1024.size a + S256x1024.size a := by
  show i ∈ ((View.whole main_v20_0).slice (win0_15.rect t)).set ↔ _
  rw [View.set_slice_whole, Rect.mem_set_unit]
  exact Iff.rfl

/-- Row `p` of the cell-state array is in the block of point `p / 256`. -/
theorem cover16 (i : S8192x1024.Idx) : ∃ t : Fin cfg0.N, (cfg0.win 16).flush t = true ∧ i ∈ ((cfg0.win 16).blk t).view.set := by
  have hi0 : (i 0).val < 8192 := (i 0).isLt
  have hi1 : (i 1).val < 1024 := (i 1).isLt
  have hN : (i 0).val / 256 < cfg0.N := lt_of_lt_of_eq (b := 32) (by omega) N_0.symm
  obtain ⟨-, -, -, -, ⟨e0, e1⟩⟩ := idx_facts ⟨(i 0).val / 256, hN⟩
  refine ⟨⟨(i 0).val / 256, hN⟩, flush0_16 _, ?_⟩
  rw [mem_blk16]
  intro a
  match a with
  | ⟨0, _⟩ =>
    show win0_16.index ⟨(i 0).val / 256, hN⟩ 0 * 256 ≤ (i 0).val ∧ (i 0).val < win0_16.index ⟨(i 0).val / 256, hN⟩ 0 * 256 + 256
    rw [e0]
    show (i 0).val / 256 * 256 ≤ (i 0).val ∧ (i 0).val < (i 0).val / 256 * 256 + 256
    omega
  | ⟨1, _⟩ =>
    show win0_16.index ⟨(i 0).val / 256, hN⟩ 1 * 1024 ≤ (i 1).val ∧ (i 1).val < win0_16.index ⟨(i 0).val / 256, hN⟩ 1 * 1024 + 1024
    rw [e1]
    omega

/-- Row `p` of the hidden-state array is in the block of point `p / 256`. -/
theorem cover15 (i : S8192x1024.Idx) : ∃ t : Fin cfg0.N, (cfg0.win 15).flush t = true ∧ i ∈ ((cfg0.win 15).blk t).view.set := by
  have hi0 : (i 0).val < 8192 := (i 0).isLt
  have hi1 : (i 1).val < 1024 := (i 1).isLt
  have hN : (i 0).val / 256 < cfg0.N := lt_of_lt_of_eq (b := 32) (by omega) N_0.symm
  obtain ⟨-, -, -, ⟨e0, e1⟩, -⟩ := idx_facts ⟨(i 0).val / 256, hN⟩
  refine ⟨⟨(i 0).val / 256, hN⟩, flush0_15 _, ?_⟩
  rw [mem_blk15]
  intro a
  match a with
  | ⟨0, _⟩ =>
    show win0_15.index ⟨(i 0).val / 256, hN⟩ 0 * 256 ≤ (i 0).val ∧ (i 0).val < win0_15.index ⟨(i 0).val / 256, hN⟩ 0 * 256 + 256
    rw [e0]
    show (i 0).val / 256 * 256 ≤ (i 0).val ∧ (i 0).val < (i 0).val / 256 * 256 + 256
    omega
  | ⟨1, _⟩ =>
    show win0_15.index ⟨(i 0).val / 256, hN⟩ 1 * 1024 ≤ (i 1).val ∧ (i 1).val < win0_15.index ⟨(i 0).val / 256, hN⟩ 1 * 1024 + 1024
    rw [e1]
    omega

/-- After the run the cell-state array holds the new cell state. -/
theorem final16 (c : Dev nD) : (dats m 0 c).arrAt 16 cfg0.N = cellOut m c :=
  (dats m 0 c).arrAt_eq_of_cover 16 (cellOut m c) (fun t _ => flushed16_eq m c t) cover16

/-- After the run the hidden-state array holds the new hidden state. -/
theorem final15 (c : Dev nD) : (dats m 0 c).arrAt 15 cfg0.N = hiddenOut m c :=
  (dats m 0 c).arrAt_eq_of_cover 15 (hiddenOut m c) (fun t _ => flushed15_eq m c t) cover15

/-! ## The run -/

/-- Every weakly fair execution of the kernel program ends with the two results at the cell's outputs and the arguments
    unchanged. -/
theorem run : θ_run defs (onTc (τ := τ) (main (F := Ideal))) ⟨m, fun _ => 0, ρ⟩ fun r => ∀ c : Dev nD,
      r.2.mem ((c : Thread nD τ).loc main_v20_0) = hiddenOut m c
      ∧ r.2.mem ((c : Thread nD τ).loc main_v20_1) = cellOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final15 m c), (h c).2.1.trans (final16 m c), (h c).2.2⟩)
    (run_blocks m ρ)

end Cert.KernelIdeal.Cell

end
-- ==== Proof.RefSide.lean ====
/-
  The reference computes the LSTM cell of `Spec.lean`.

  It joins `x` and `h` into `[x | h] : [8192, 2048]`, multiplies by each `[2048, 1024]` weight matrix and adds the bias row:
  the joined row `p` at a column below 1024 is `x(p, ·)`, at a column `1024 + k` it is `h(p, k)`, so by the split of the
  sum over the 2048 columns into its halves each product-plus-bias is the gate's `logit`. The reference writes the
  logistic function out as `1 / (1 + exp (-z))`, which is the extended reals' `logistic` by definition, the word
  `0x3F800000` being the real one.
-/
import proofs.«168228_j3169685864614_1_alg».proof.Proof.Gen.ReferenceIdeal.Read
import proofs.«168228_j3169685864614_1_alg».proof.Proof.Spec
import Idealize.ShloMosaic.Lib.IdealHost
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.LstmCell

/-- A matrix argument of the reference, as extended reals. -/
abbrev A (s : Shape) : Type := (⟨s, .f32⟩ : BufTy).Contents (Elt Ideal)

/-- The joined row `p` at a column of its first half is `x(p, k)`. -/
theorem joined_upper (x0 x1 : A S8192x1024) (p : Fin 8192) (q : Fin 1024) (k : Fin 1024) :
    val_main_v0 (F := Ideal) x0 x1 (lidx_main_v1 (ix2 p q) (upper k)) = x0 (ix2 p k) := by
  unfold val_main_v0
  refine concatenate_pair_apply_left (t := S8192x2048) (s₁ := S8192x1024) (s₂ := S8192x1024) 1 x0 x1
    concatenates_S8192x1024_S8192x1024_S8192x2048_d1 (lidx_main_v1 (ix2 p q) (upper k)) rfl (ix2 p k) fun b => ?_
  match b with
  | ⟨0, _⟩ => rfl
  | ⟨1, _⟩ => rfl

/-- The joined row `p` at column `1024 + k` is `h(p, k)`. -/
theorem joined_lower (x0 x1 : A S8192x1024) (p : Fin 8192) (q : Fin 1024) (k : Fin 1024) :
    val_main_v0 (F := Ideal) x0 x1 (lidx_main_v1 (ix2 p q) (lower k)) = x1 (ix2 p k) := by
  unfold val_main_v0
  refine concatenate_pair_apply_right (t := S8192x2048) (s₁ := S8192x1024) (s₂ := S8192x1024) 1 x0 x1
    concatenates_S8192x1024_S8192x1024_S8192x2048_d1 (lidx_main_v1 (ix2 p q) (lower k)) rfl rfl (ix2 p k) (fun b hb => ?_) ?_
  · match b with
    | ⟨0, _⟩ => rfl
    | ⟨1, _⟩ => exact absurd rfl hb
  · show k.val + 1024 = 1024 + k.val
    omega

/-- A joined-row product plus its bias row is the gate's logit. -/
theorem logit_ref (x0 x1 : A S8192x1024) (W : A S2048x1024) (b : A S1024) (p : Fin 8192) (q : Fin 1024) :
    val_main_v4 (F := Ideal) x0 x1 W b (ix2 p q) = logit x0 x1 W b p q := by
  rw [val_main_v4_apply, val_main_v1_apply, val_main_v3_apply, val_main_v2_apply]
  have hW : ∀ k : Fin 2048, ridx_main_v1 (ix2 p q) k = ix2 k q := fun k =>
    funext fun a => by match a with | ⟨0, _⟩ => rfl | ⟨1, _⟩ => rfl
  have hb : idx_main_v2 (idx_main_v3 (ix2 p q)) = ix1 q := funext fun a => by match a with | ⟨0, _⟩ => rfl
  simp only [hW, hb, Ideal.addf_def]
  exact logit_of_joined x0 x1 W b p q (fun k => val_main_v0 (F := Ideal) x0 x1 (lidx_main_v1 (ix2 p q) k))
    (joined_upper x0 x1 p q) (joined_lower x0 x1 p q)

/-- `1 / (1 + exp (-z))` in the host's operations, with the word of the real one, is the logistic function. -/
theorem sigmoid_ref (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  simp only [Ideal.ofBits_def, Ideal.ofBits_one_f32]
  rfl

/-- A gate with the logistic function, at `(p, q)`. -/
theorem gate_sigmoid (x0 x1 : A S8192x1024) (W : A S2048x1024) (b : A S1024) (p : Fin 8192) (q : Fin 1024) :
    val_main_v10 (F := Ideal) x0 x1 W b (ix2 p q) = Ideal.logistic (logit x0 x1 W b p q) := by
  rw [val_main_v10_apply, val_main_v9_apply, val_main_cst_0_apply, val_main_v8_apply, val_main_v7_apply,
    val_main_cst_apply, val_main_v6_apply, val_main_v5_apply, sigmoid_ref, logit_ref]

/-- The gate with the hyperbolic tangent, at `(p, q)`. -/
theorem gate_tanh (x0 x1 : A S8192x1024) (W : A S2048x1024) (b : A S1024) (p : Fin 8192) (q : Fin 1024) :
    val_main_v15 (F := Ideal) x0 x1 W b (ix2 p q) = Ideal.tanh (logit x0 x1 W b p q) := by
  rw [val_main_v15_apply, show val_main_v14 (F := Ideal) x0 x1 W b = val_main_v4 (F := Ideal) x0 x1 W b from rfl, logit_ref]
  rfl

/-- The reference's second result is the new cell state. -/
theorem cNew_ref (x0 x1 x2 : A S8192x1024) (x3 : A S2048x1024) (x4 : A S1024) (x5 : A S2048x1024) (x6 : A S1024)
    (x7 : A S2048x1024) (x8 : A S1024) :
    val_main_v28 (F := Ideal) x0 x1 x2 x3 x4 x5 x6 x7 x8 = cNew x0 x1 x2 x3 x4 x5 x6 x7 x8 := by
  funext i
  obtain ⟨p, q, rfl⟩ : ∃ (p : Fin 8192) (q : Fin 1024), i = ix2 p q := ⟨i 0, i 1, eq_ix2 i⟩
  rw [val_main_v28_apply, val_main_v26_apply, val_main_v27_apply, gate_sigmoid, gate_tanh,
    show val_main_v25 (F := Ideal) x0 x1 x7 x8 = val_main_v10 (F := Ideal) x0 x1 x7 x8 from rfl, gate_sigmoid]
  rfl

/-- The reference's first result is the new hidden state. -/
theorem hNew_ref (x0 x1 x2 : A S8192x1024) (x3 : A S2048x1024) (x4 : A S1024) (x5 : A S2048x1024) (x6 : A S1024)
    (x7 : A S2048x1024) (x8 : A S1024) (x9 : A S2048x1024) (x10 : A S1024) :
    val_main_v40 (F := Ideal) x0 x1 x2 x3 x4 x5 x6 x7 x8 x9 x10 = hNew x0 x1 x2 x3 x4 x5 x6 x7 x8 x9 x10 := by
  funext i
  obtain ⟨p, q, rfl⟩ : ∃ (p : Fin 8192) (q : Fin 1024), i = ix2 p q := ⟨i 0, i 1, eq_ix2 i⟩
  rw [val_main_v40_apply, val_main_v39_apply, cNew_ref,
    show val_main_v38 (F := Ideal) x0 x1 x9 x10 = val_main_v10 (F := Ideal) x0 x1 x9 x10 from rfl, gate_sigmoid]
  rfl

end Cert.ReferenceIdeal.RefValue

end
-- ==== Proof.lean ====
/-
  A Pallas LSTM cell against its jnp reference, on the extended reals.

  Both programs take `x, h, c : [8192, 1024]`, four weight matrices `[2048, 1024]` and four bias rows `[1024]`, and return
  the new hidden state and the new cell state

      c' = c · σ(z_f) + tanh(z_c) · σ(z_m),      h' = σ(z_o) · tanh(c'),      z_g = [x | h] · W_g + b_g,

  with `σ z = 1 / (1 + e⁻ᶻ)`.  The reference joins `x` and `h` and multiplies the joined `[8192, 2048]` matrix by each
  `W_g`; the kernel multiplies a block of 256 rows of `x` by the first 1024 rows of `W_g` and the same rows of `h` by the last
  1024 rows, and adds the two.  These agree because a sum over the 2048 joined columns is the sum over its first half plus
  the sum over its second half; the kernel's narrowing of its matrix operands to bf16 is the identity on the extended
  reals, and the reference's spelled-out `1 / (1 + exp (-z))` is the kernel's logistic operation by definition.  Neither
  step needs the inputs to be finite.

  `Spec.lean` states the cell; `RefSide.lean` shows the reference computes it; `Body.lean`, `Bridge.lean` and `Cell.lean`
  show the kernel's two result arrays hold it (the body at an index of a row block, the row block as rows of the arrays,
  the 32 row blocks tiling the results).
-/
import proofs.«168228_j3169685864614_1_alg».proof.Defs
import proofs.«168228_j3169685864614_1_alg».proof.Proof.Gen.Kernel
import proofs.«168228_j3169685864614_1_alg».proof.Proof.Gen.Kernel.Skeleton
import proofs.«168228_j3169685864614_1_alg».proof.Proof.Gen.Kernel.Launch
import proofs.«168228_j3169685864614_1_alg».proof.Proof.Gen.Kernel.Points
import proofs.«168228_j3169685864614_1_alg».proof.Proof.Gen.Kernel.Frame
import proofs.«168228_j3169685864614_1_alg».proof.Proof.Gen.KernelIdeal
import proofs.«168228_j3169685864614_1_alg».proof.Proof.Gen.KernelIdeal.Skeleton
import proofs.«168228_j3169685864614_1_alg».proof.Proof.Gen.KernelIdeal.Launch
import proofs.«168228_j3169685864614_1_alg».proof.Proof.Gen.KernelIdeal.Points
import proofs.«168228_j3169685864614_1_alg».proof.Proof.Gen.KernelIdeal.Frame
import proofs.«168228_j3169685864614_1_alg».proof.Proof.Gen.ReferenceIdeal
import proofs.«168228_j3169685864614_1_alg».proof.Proof.Gen.Pre_finite_inputs
import proofs.«168228_j3169685864614_1_alg».proof.Proof.Gen.KernelIdeal.Value
import proofs.«168228_j3169685864614_1_alg».proof.Proof.Gen.ReferenceIdeal.Run
import proofs.«168228_j3169685864614_1_alg».proof.Proof.Gen.ReferenceIdeal.Read
import proofs.«168228_j3169685864614_1_alg».proof.Proof.Cell
import proofs.«168228_j3169685864614_1_alg».proof.Proof.RefSide
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the eleven arguments both programs end with the new hidden state and the new cell
    state of those arguments. -/
theorem algebraic : Cert.algebraic_KernelIdeal_ReferenceIdeal := by
  intro m ρ m' ρ' _ hagree
  refine ⟨fun c => Cert.KernelIdeal.Cell.hiddenOut m c, fun c => Cert.KernelIdeal.Cell.cellOut m c,
    Cert.KernelIdeal.Cell.run m ρ, ?_⟩
  refine (θ_run Cert.ReferenceIdeal.defs _ _).mono (fun _ h c => ?_) (Cert.ReferenceIdeal.Value.run (F := Ideal) m' ρ')
  obtain ⟨h40, h28, hrest⟩ := h c
  obtain ⟨a0, a1, a2, a3, a4, a5, a6, a7, a8, a9, a10⟩ := hagree c
  refine ⟨h40.trans ?_, h28.trans ?_, hrest⟩
  · rw [Cert.ReferenceIdeal.Read.val_main_v40_eq, Cert.ReferenceIdeal.RefValue.hNew_ref, a0, a1, a2, a3, a4, a5, a6, a7, a8, a9,
      a10]
  · rw [Cert.ReferenceIdeal.Read.val_main_v28_eq, Cert.ReferenceIdeal.RefValue.cNew_ref, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
